-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x30000 : Shape := ⟨2, ![4096, 30000]⟩
abbrev S3 : Shape := ⟨1, ![3]⟩
abbrev S200000x64 : Shape := ⟨2, ![200000, 64]⟩
abbrev S64x30000 : Shape := ⟨2, ![64, 30000]⟩
abbrev S4096x32 : Shape := ⟨2, ![4096, 32]⟩
abbrev S4096 : Shape := ⟨1, ![4096]⟩
abbrev S_ : Shape := ⟨0, ![]⟩

class Facts : Prop where
  bcast_S_S4096x30000 : S_.BroadcastsInDim S4096x30000 (![] : Fin 0 → Fin S4096x30000.rank)
  reducesTo_S4096x30000_S_d0_1 : S4096x30000.ReducesTo [0, 1] S_
  h_S_ : 0 < S_.numel
  bcast_S_S3 : S_.BroadcastsInDim S3 (![] : Fin 0 → Fin S3.rank)
  reducesTo_S3_S_d0 : S3.ReducesTo [0] S_
  bcast_S_S200000x64 : S_.BroadcastsInDim S200000x64 (![] : Fin 0 → Fin S200000x64.rank)
  reducesTo_S200000x64_S_d0_1 : S200000x64.ReducesTo [0, 1] S_
  bcast_S_S64x30000 : S_.BroadcastsInDim S64x30000 (![] : Fin 0 → Fin S64x30000.rank)
  reducesTo_S64x30000_S_d0_1 : S64x30000.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S64x30000 .f32) (main_arg5 : FVec F S4096x32 .f32) (main_arg6 : FVec F S4096x32 .f32) (main_v13 : IVec S_ 1) (main_v16 : IVec S200000x64 1) : IVec S_ 1 :=
  let main_c_5 : IVec S_ 1 := constantI S_ 1 1#1
  let main_v17 : IVec S_ 1 := (fun x v => Host.reduce IntOp.andi x v reducesTo_S200000x64_S_d0_1 h_S_) main_v16 main_c_5
  let main_v18 : IVec S_ 1 := andi main_v13 main_v17
  let main_v19 : FVec F S64x30000 .f32 := Host.absf main_arg4
  let main_cst_6 : FVec F S_ .f32 := constant S_ .f32 0x7F800000#32
  let main_v20 : FVec F S64x30000 .f32 := broadcastInDim S64x30000 ![] bcast_S_S64x30000 main_cst_6
  let main_v21 : IVec S64x30000 1 := cmpf .olt main_v19 main_v20
  let main_c_7 : IVec S_ 1 := constantI S_ 1 1#1
  let main_v22 : IVec S_ 1 := (fun x v => Host.reduce IntOp.andi x v reducesTo_S64x30000_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S4096x32 .f32 := Host.absf main_arg6
  let main_cst_10 : FVec F S_ .f32 := constant S_ .f32 0x7F800000#32
  let main_v30 : FVec F S4096x32 .f32 := broadcastInDim S4096x32 ![] bcast_S_S4096x32 main_cst_10
  let main_v31 : IVec S4096x32 1 := cmpf .olt main_v29 main_v30
  let main_c_11 : IVec S_ 1 := constantI S_ 1 1#1
  let main_v32 : IVec S_ 1 := (fun x v => Host.reduce IntOp.andi x v reducesTo_S4096x32_S_d0_1 h_S_) main_v31 main_c_11
  let main_v33 : IVec S_ 1 := andi main_v28 main_v32
  main_v33

def fn {F : FTy → Type} [FloatOps F] (main_arg0 : FVec F S4096x30000 .f32) (main_arg1 : FVec F S4096x30000 .f32) (main_arg2 : FVec F S3 .f32) (main_arg3 : FVec F S200000x64 .f32) (main_arg4 : FVec F S64x30000 .f32) (main_arg5 : FVec F S4096x32 .f32) (main_arg6 : FVec F S4096x32 .f32) (main_arg7 : IVec S4096 32) (main_arg8 : IVec S4096 32) (main_arg9 : IVec S4096x32 32) (main_arg10 : IVec S4096x32 32) : IVec S_ 1 :=
  let main_v0 : FVec F S4096x30000 .f32 := Host.absf main_arg0
  let main_cst : FVec F S_ .f32 := constant S_ .f32 0x7F800000#32
  let main_v1 : FVec F S4096x30000 .f32 := broadcastInDim S4096x30000 ![] bcast_S_S4096x30000 main_cst
  let main_v2 : IVec S4096x30000 1 := cmpf .olt main_v0 main_v1
  let main_c : IVec S_ 1 := constantI S_ 1 1#1
  let main_v3 : IVec S_ 1 := (fun x v => Host.reduce IntOp.andi x v reducesTo_S4096x30000_S_d0_1 h_S_) main_v2 main_c
  let main_v4 : FVec F S4096x30000 .f32 := Host.absf main_arg1
  let main_cst_0 : FVec F S_ .f32 := constant S_ .f32 0x7F800000#32
  let main_v5 : FVec F S4096x30000 .f32 := broadcastInDim S4096x30000 ![] bcast_S_S4096x30000 main_cst_0
  let main_v6 : IVec S4096x30000 1 := cmpf .olt main_v4 main_v5
  let main_c_1 : IVec S_ 1 := constantI S_ 1 1#1
  let main_v7 : IVec S_ 1 := (fun x v => Host.reduce IntOp.andi x v reducesTo_S4096x30000_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S200000x64 .f32 := Host.absf main_arg3
  let main_cst_4 : FVec F S_ .f32 := constant S_ .f32 0x7F800000#32
  let main_v15 : FVec F S200000x64 .f32 := broadcastInDim S200000x64 ![] bcast_S_S200000x64 main_cst_4
  let main_v16 : IVec S200000x64 1 := cmpf .olt main_v14 main_v15
  fn_part1 (F := F) main_arg4 main_arg5 main_arg6 main_v13 main_v16
-- ==== Kernel.lean ====
abbrev S4096x30000 : Shape := ⟨2, ![4096, 30000]⟩
abbrev S3 : Shape := ⟨1, ![3]⟩
abbrev S200000x64 : Shape := ⟨2, ![200000, 64]⟩
abbrev S64x30000 : Shape := ⟨2, ![64, 30000]⟩
abbrev S4096x32 : Shape := ⟨2, ![4096, 32]⟩
abbrev S4096 : Shape := ⟨1, ![4096]⟩
abbrev S25x8x128 : Shape := ⟨3, ![25, 8, 128]⟩
abbrev S8000x64 : Shape := ⟨2, ![8000, 64]⟩
abbrev S1x8x128 : Shape := ⟨3, ![1, 8, 128]⟩
abbrev S1x8000x64 : Shape := ⟨3, ![1, 8000, 64]⟩
abbrev S1 : Shape := ⟨1, ![1]⟩
abbrev S1x1x1 : Shape := ⟨3, ![1, 1, 1]⟩
abbrev S8x128 : Shape := ⟨2, ![8, 128]⟩
abbrev S_ : Shape := ⟨0, ![]⟩
abbrev S1x64x30000 : Shape := ⟨3, ![1, 64, 30000]⟩
abbrev S4096x1 : Shape := ⟨2, ![4096, 1]⟩
abbrev S4096x64 : Shape := ⟨2, ![4096, 64]⟩
abbrev S4096x32x1 : Shape := ⟨3, ![4096, 32, 1]⟩
abbrev S4096x32x64 : Shape := ⟨3, ![4096, 32, 64]⟩
abbrev S4096x1x64 : Shape := ⟨3, ![4096, 1, 64]⟩
abbrev S64x4096 : Shape := ⟨2, ![64, 4096]⟩
abbrev S64x4096x32 : Shape := ⟨3, ![64, 4096, 32]⟩
abbrev S64x8x128 : Shape := ⟨3, ![64, 8, 128]⟩

abbrev nBuf : Space → Nat
  | .hbm => 94
  | .vmem => 12
  | .smem => 0
  | _ => 0

abbrev bufTy : (tb : Table) → Fin (tcTables nBuf tb) → BufTy
  | .hbm, ⟨0, _⟩ => ⟨S4096x30000, .f32⟩
  | .hbm, ⟨1, _⟩ => ⟨S4096x30000, .f32⟩
  | .hbm, ⟨2, _⟩ => ⟨S3, .f32⟩
  | .hbm, ⟨3, _⟩ => ⟨S200000x64, .f32⟩
  | .hbm, ⟨4, _⟩ => ⟨S64x30000, .f32⟩
  | .hbm, ⟨5, _⟩ => ⟨S4096x32, .f32⟩
  | .hbm, ⟨6, _⟩ => ⟨S4096x32, .f32⟩
  | .hbm, ⟨7, _⟩ => ⟨S4096, .i32⟩
  | .hbm, ⟨8, _⟩ => ⟨S4096, .i32⟩
  | .hbm, ⟨9, _⟩ => ⟨S4096x32, .i32⟩
  | .hbm, ⟨10, _⟩ => ⟨S4096x32, .i32⟩
  | .hbm, ⟨11, _⟩ => ⟨S25x8x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x8x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x64, .f32⟩
  | .hbm, ⟨29, _⟩ => ⟨S_, .i32⟩
  | .hbm, ⟨30, _⟩ => ⟨S4096x32, .i32⟩
  | .hbm, ⟨31, _⟩ => ⟨S4096x32, .i1⟩
  | .hbm, ⟨32, _⟩ => ⟨S_, .i32⟩
  | .hbm, ⟨33, _⟩ => ⟨S4096x32, .i32⟩
  | .hbm, ⟨34, _⟩ => ⟨S4096x32, .i32⟩
  | .hbm, ⟨35, _⟩ => ⟨S4096x32, .i32⟩
  | .hbm, ⟨36, _⟩ => ⟨S4096x32x1, .i32⟩
  | .hbm, ⟨37, _⟩ => ⟨S4096x32x64, .f32⟩
  | .hbm, ⟨38, _⟩ => ⟨S4096x1x64, .f32⟩
  | .hbm, ⟨39, _⟩ => ⟨S4096x32x64, .f32⟩
  | .hbm, ⟨40, _⟩ => ⟨S4096x32x64, .f32⟩
  | .hbm, ⟨41, _⟩ => ⟨S4096x32x64, .f32⟩
  | .hbm, ⟨42, _⟩ => ⟨S_, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S64x4096, .f32⟩
  | .hbm, ⟨57, _⟩ => ⟨S4096x64, .f32⟩
  | .hbm, ⟨58, _⟩ => ⟨S_, .i32⟩
  | .hbm, ⟨59, _⟩ => ⟨S4096x32, .i32⟩
  | .hbm, ⟨60, _⟩ => ⟨S4096x32, .i1⟩
  | .hbm, ⟨61, _⟩ => ⟨S_, .i32⟩
  | .hbm, ⟨62, _⟩ => ⟨S4096x32, .i32⟩
  | .hbm, ⟨63, _⟩ => ⟨S4096x32, .i32⟩
  | .hbm, ⟨64, _⟩ => ⟨S4096x32, .i32⟩
  | .hbm, ⟨65, _⟩ => ⟨S4096x32x1, .i32⟩
  | .hbm, ⟨66, _⟩ => ⟨S64x4096x32, .f32⟩
  | .hbm, ⟨67, _⟩ => ⟨S4096x32x64, .f32⟩
  | .hbm, ⟨68, _⟩ => ⟨S4096x1x64, .f32⟩
  | .hbm, ⟨69, _⟩ => ⟨S4096x32x64, .f32⟩
  | .hbm, ⟨70, _⟩ => ⟨S4096x32x64, .f32⟩
  | .hbm, ⟨71, _⟩ => ⟨S4096x32x64, .f32⟩
  | .hbm, ⟨72, _⟩ => ⟨S_, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S_, .f32⟩
  | .hbm, ⟨77, _⟩ => ⟨S_, .f32⟩
  | .hbm, ⟨78, _⟩ => ⟨S64x8x128, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S8000x64, .f32⟩
  | .local _ .vmem, ⟨1, _⟩ => ⟨S8000x64, .f32⟩
  | .local _ .vmem, ⟨2, _⟩ => ⟨S1x8x128, .f32⟩
  | .local _ .vmem, ⟨3, _⟩ => ⟨S1x8x128, .f32⟩
  | .local _ .vmem, ⟨4, _⟩ => ⟨S64x30000, .f32⟩
  | .local _ .vmem, ⟨5, _⟩ => ⟨S1x8x128, .f32⟩
  | .local _ .vmem, ⟨6, _⟩ => ⟨S64x30000, .f32⟩
  | .local _ .vmem, ⟨7, _⟩ => ⟨S64x30000, .f32⟩
  | .local _ .vmem, ⟨8, _⟩ => ⟨S64x30000, .f32⟩
  | .local _ .vmem, ⟨9, _⟩ => ⟨S64x30000, .f32⟩
  | .local _ .vmem, ⟨10, _⟩ => ⟨S1x8x128, .f32⟩
  | .local _ .vmem, ⟨11, _⟩ => ⟨S1x8x128, .f32⟩
  | _, _ => ⟨S4096x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x30000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x30000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x30000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S8000x64_S8000x64_0_0 : ∀ a, (![0, 0] : Fin 2 → Nat) a + S8000x64.size a ≤ S8000x64.size a
  h_S8000x64 : 0 < S8000x64.numel
  shapeCasts_S8000x64_S1x8000x64 : S8000x64.ShapeCasts S1x8000x64
  reduces_S1x8000x64_S1 : S1x8000x64.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S25x8x128_S_d0_1_2 : S25x8x128.ReducesTo [0, 1, 2] S_
  h_S_ : 0 < S_.numel
  inb_S64x30000_S64x30000_0_0 : ∀ a, (![0, 0] : Fin 2 → Nat) a + S64x30000.size a ≤ S64x30000.size a
  h_S64x30000 : 0 < S64x30000.numel
  shapeCasts_S64x30000_S1x64x30000 : S64x30000.ShapeCasts S1x64x30000
  reduces_S1x64x30000_S1 : S1x64x30000.Reduces [1, 2] S1
  reducesTo_S1x8x128_S_d0_1_2 : S1x8x128.ReducesTo [0, 1, 2] S_
  bcast_S_S4096 : S_.BroadcastsInDim S4096 (![] : Fin 0 → Fin S4096.rank)
  bcast_S4096_S4096x1_0 : S4096.BroadcastsInDim S4096x1 (![0] : Fin 1 → Fin S4096x1.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x64_S4096x1x64_0_2 : S4096x64.BroadcastsInDim S4096x1x64 (![0, 2] : Fin 2 → Fin S4096x1x64.rank)
  bcast_S4096x1x64_S4096x32x64_0_1_2 : S4096x1x64.BroadcastsInDim S4096x32x64 (![0, 1, 2] : Fin 3 → Fin S4096x32x64.rank)
  reducesTo_S4096x32x64_S4096x32_d2 : S4096x32x64.ReducesTo [2] S4096x32
  reducesTo_S4096x32_S_d0_1 : S4096x32.ReducesTo [0, 1] S_
  transposes_S64x4096_S4096x64_1_0 : S64x4096.Transposes [1, 0] S4096x64
  transposes_S64x4096x32_S4096x32x64_1_2_0 : S64x4096x32.Transposes [1, 2, 0] S4096x32x64
  reducesTo_S64x8x128_S_d0_1_2 : S64x8x128.ReducesTo [0, 1, 2] S_
  slices_S3_S1_0 : S3.Slices ![0] S1
  shapeCasts_S1_S_ : S1.ShapeCasts S_
  slices_S3_S1_1 : S3.Slices ![1] S1
  slices_S3_S1_2 : S3.Slices ![2] S1
  gather_S200000x64_S4096x1_S4096x64_1_0_n_n_0_1_164_wf : GatherDims.WF S200000x64 S4096x1 S4096x64 [1] [0] [] [0] [] 1 ![1, 64]
  gather_S200000x64_S4096x32x1_S4096x32x64_2_0_n_n_0_2_164_wf : GatherDims.WF S200000x64 S4096x32x1 S4096x32x64 [2] [0] [] [0] [] 2 ![1, 64]
  gather_S64x30000_S4096x1_S64x4096_0_1_n_n_1_1_641_wf : GatherDims.WF S64x30000 S4096x1 S64x4096 [0] [1] [] [1] [] 1 ![64, 1]
  gather_S64x30000_S4096x32x1_S64x4096x32_0_1_n_n_1_2_641_wf : GatherDims.WF S64x30000 S4096x32x1 S64x4096x32 [0] [1] [] [1] [] 2 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .f32 = 32 ∨ (Rect.block (s := S200000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S25x8x128.size a
  hwx0_1 : ∀ i : grid0.Coords, EltTy.bits .f32 = 32 ∨ (Rect.block (s := S25x8x128) S1x8x128.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S64x30000.size a ≤ S64x30000.size a
  hwx1_0 : ∀ i : grid1.Coords, EltTy.bits .f32 = 32 ∨ (Rect.block (s := S64x30000) S64x30000.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x8x128.size a ≤ S1x8x128.size a
  hwx1_1 : ∀ i : grid1.Coords, EltTy.bits .f32 = 32 ∨ (Rect.block (s := S1x8x128) S1x8x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x30000.size a ≤ S4096x30000.size a
  hwx2_0 : ∀ i : grid2.Coords, EltTy.bits .f32 = 32 ∨ (Rect.block (s := S4096x30000) S64x30000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x30000.size a ≤ S4096x30000.size a
  hwx2_1 : ∀ i : grid2.Coords, EltTy.bits .f32 = 32 ∨ (Rect.block (s := S4096x30000) S64x30000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x128.size a ≤ S64x8x128.size a
  hwx2_2 : ∀ i : grid2.Coords, EltTy.bits .f32 = 32 ∨ (Rect.block (s := S64x8x128) S1x8x128.size (cc2_transform_2 i) (hinb2_2 i)).WholeWords (EltTy.packing .f32)

variable [Facts₀]

def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S200000x64_S4096x32x1_S4096x32x64_2_0_n_n_0_2_164 : GatherDims S200000x64 S4096x32x1 S4096x32x64 where
  offsetDims := [2]
  collapsedSliceDims := [0]
  operandBatchingDims := []
  startIndicesBatchingDims := []
  startIndexMap := [0]
  indexVectorDim := 2
  sliceSizes := ![1, 64]
  wf := gather_S200000x64_S4096x32x1_S4096x32x64_2_0_n_n_0_2_164_wf
def gather_S64x30000_S4096x1_S64x4096_0_1_n_n_1_1_641 : GatherDims S64x30000 S4096x1 S64x4096 where
  offsetDims := [0]
  collapsedSliceDims := [1]
  operandBatchingDims := []
  startIndicesBatchingDims := []
  startIndexMap := [1]
  indexVectorDim := 1
  sliceSizes := ![64, 1]
  wf := gather_S64x30000_S4096x1_S64x4096_0_1_n_n_1_1_641_wf
def gather_S64x30000_S4096x32x1_S64x4096x32_0_1_n_n_1_2_641 : GatherDims S64x30000 S4096x32x1 S64x4096x32 where
  offsetDims := [0]
  collapsedSliceDims := [1]
  operandBatchingDims := []
  startIndicesBatchingDims := []
  startIndexMap := [1]
  indexVectorDim := 2
  sliceSizes := ![64, 1]
  wf := gather_S64x30000_S4096x32x1_S64x4096x32_0_1_n_n_1_2_641_wf

abbrev win0_0 : Pipeline.Window sig grid0 :=
  Pipeline.Window.ofSpec (Memref.whole main_arg3) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg4) S64x30000.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x8x128.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S64x30000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S64x30000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x30000 : Shape := ⟨2, ![4096, 30000]⟩
abbrev S3 : Shape := ⟨1, ![3]⟩
abbrev S200000x64 : Shape := ⟨2, ![200000, 64]⟩
abbrev S64x30000 : Shape := ⟨2, ![64, 30000]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S4096x64 : Shape := ⟨2, ![4096, 64]⟩
abbrev S4096x32x1 : Shape := ⟨3, ![4096, 32, 1]⟩
abbrev S4096x32x64 : Shape := ⟨3, ![4096, 32, 64]⟩
abbrev S4096x1x64 : Shape := ⟨3, ![4096, 1, 64]⟩
abbrev S64x4096 : Shape := ⟨2, ![64, 4096]⟩
abbrev S64x4096x32 : Shape := ⟨3, ![64, 4096, 32]⟩
abbrev S1 : Shape := ⟨1, ![1]⟩

abbrev nBuf : Space → Nat
  | .hbm => 101
  | .vmem => 0
  | .smem => 0
  | _ => 0

abbrev bufTy : (tb : Table) → Fin (tcTables nBuf tb) → BufTy
  | .hbm, ⟨0, _⟩ => ⟨S4096x30000, .f32⟩
  | .hbm, ⟨1, _⟩ => ⟨S4096x30000, .f32⟩
  | .hbm, ⟨2, _⟩ => ⟨S3, .f32⟩
  | .hbm, ⟨3, _⟩ => ⟨S200000x64, .f32⟩
  | .hbm, ⟨4, _⟩ => ⟨S64x30000, .f32⟩
  | .hbm, ⟨5, _⟩ => ⟨S4096x32, .f32⟩
  | .hbm, ⟨6, _⟩ => ⟨S4096x32, .f32⟩
  | .hbm, ⟨7, _⟩ => ⟨S4096, .i32⟩
  | .hbm, ⟨8, _⟩ => ⟨S4096, .i32⟩
  | .hbm, ⟨9, _⟩ => ⟨S4096x32, .i32⟩
  | .hbm, ⟨10, _⟩ => ⟨S4096x32, .i32⟩
  | .hbm, ⟨11, _⟩ => ⟨S_, .f32⟩
  | .hbm, ⟨12, _⟩ => ⟨S200000x64, .f32⟩
  | .hbm, ⟨13, _⟩ => ⟨S200000x64, .f32⟩
  | .hbm, ⟨14, _⟩ => ⟨S200000x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64x30000, .f32⟩
  | .hbm, ⟨20, _⟩ => ⟨S64x30000, .f32⟩
  | .hbm, ⟨21, _⟩ => ⟨S64x30000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x64, .f32⟩
  | .hbm, ⟨35, _⟩ => ⟨S_, .i32⟩
  | .hbm, ⟨36, _⟩ => ⟨S4096x32, .i32⟩
  | .hbm, ⟨37, _⟩ => ⟨S4096x32, .i1⟩
  | .hbm, ⟨38, _⟩ => ⟨S_, .i32⟩
  | .hbm, ⟨39, _⟩ => ⟨S4096x32, .i32⟩
  | .hbm, ⟨40, _⟩ => ⟨S4096x32, .i32⟩
  | .hbm, ⟨41, _⟩ => ⟨S4096x32, .i32⟩
  | .hbm, ⟨42, _⟩ => ⟨S4096x32x1, .i32⟩
  | .hbm, ⟨43, _⟩ => ⟨S4096x32x64, .f32⟩
  | .hbm, ⟨44, _⟩ => ⟨S4096x1x64, .f32⟩
  | .hbm, ⟨45, _⟩ => ⟨S4096x32x64, .f32⟩
  | .hbm, ⟨46, _⟩ => ⟨S4096x32x64, .f32⟩
  | .hbm, ⟨47, _⟩ => ⟨S4096x32x64, .f32⟩
  | .hbm, ⟨48, _⟩ => ⟨S_, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S_, .f32⟩
  | .hbm, ⟨53, _⟩ => ⟨S_, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S64x4096, .f32⟩
  | .hbm, ⟨63, _⟩ => ⟨S4096x64, .f32⟩
  | .hbm, ⟨64, _⟩ => ⟨S_, .i32⟩
  | .hbm, ⟨65, _⟩ => ⟨S4096x32, .i32⟩
  | .hbm, ⟨66, _⟩ => ⟨S4096x32, .i1⟩
  | .hbm, ⟨67, _⟩ => ⟨S_, .i32⟩
  | .hbm, ⟨68, _⟩ => ⟨S4096x32, .i32⟩
  | .hbm, ⟨69, _⟩ => ⟨S4096x32, .i32⟩
  | .hbm, ⟨70, _⟩ => ⟨S4096x32, .i32⟩
  | .hbm, ⟨71, _⟩ => ⟨S4096x32x1, .i32⟩
  | .hbm, ⟨72, _⟩ => ⟨S64x4096x32, .f32⟩
  | .hbm, ⟨73, _⟩ => ⟨S4096x32x64, .f32⟩
  | .hbm, ⟨74, _⟩ => ⟨S4096x1x64, .f32⟩
  | .hbm, ⟨75, _⟩ => ⟨S4096x32x64, .f32⟩
  | .hbm, ⟨76, _⟩ => ⟨S4096x32x64, .f32⟩
  | .hbm, ⟨77, _⟩ => ⟨S4096x32x64, .f32⟩
  | .hbm, ⟨78, _⟩ => ⟨S_, .f32⟩
  | .hbm, ⟨79, _⟩ => ⟨S4096x32, .f32⟩
  | .hbm, ⟨80, _⟩ => ⟨S4096x32, .f32⟩
  | .hbm, ⟨81, _⟩ => ⟨S4096x32, .f32⟩
  | .hbm, ⟨82, _⟩ => ⟨S_, .f32⟩
  | .hbm, ⟨83, _⟩ => ⟨S_, .f32⟩
  | .hbm, ⟨84, _⟩ => ⟨S4096x30000, .f32⟩
  | .hbm, ⟨85, _⟩ => ⟨S4096x30000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S1, .f32⟩
  | .hbm, ⟨98, _⟩ => ⟨S_, .f32⟩
  | .hbm, ⟨99, _⟩ => ⟨S_, .f32⟩
  | .hbm, ⟨100, _⟩ => ⟨S_, .f32⟩
  | _, _ => ⟨S4096x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_v0 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v1 : Ref sig .tc := ⟨.hbm, 17, rfl⟩
abbrev main_call2_cst : Ref sig .tc := ⟨.hbm, 18, rfl⟩
abbrev main_call2_v0 : Ref sig .tc := ⟨.hbm, 19, rfl⟩
abbrev main_v2 : Ref sig .tc := ⟨.hbm, 20, rfl⟩
abbrev main_call3_v0 : Ref sig .tc := ⟨.hbm, 21, rfl⟩
abbrev main_call3_cst : Ref sig .tc := ⟨.hbm, 22, rfl⟩
abbrev main_call3_v1 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_6 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_call4_v0 : Ref sig .tc := ⟨.hbm, 85, rfl⟩
abbrev main_call4_cst : Ref sig .tc := ⟨.hbm, 86, rfl⟩
abbrev main_call4_v1 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]

class Facts₀ : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x30000 : S_.BroadcastsInDim S64x30000 (![] : Fin 0 → Fin S64x30000.rank)
  reducesTo_S64x30000_S_d0_1 : S64x30000.ReducesTo [0, 1] S_
  bcast_S_S4096 : S_.BroadcastsInDim S4096 (![] : Fin 0 → Fin S4096.rank)
  bcast_S4096_S4096x1_0 : S4096.BroadcastsInDim S4096x1 (![0] : Fin 1 → Fin S4096x1.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x64_S4096x1x64_0_2 : S4096x64.BroadcastsInDim S4096x1x64 (![0, 2] : Fin 2 → Fin S4096x1x64.rank)
  bcast_S4096x1x64_S4096x32x64_0_1_2 : S4096x1x64.BroadcastsInDim S4096x32x64 (![0, 1, 2] : Fin 3 → Fin S4096x32x64.rank)
  reducesTo_S4096x32x64_S4096x32_d2 : S4096x32x64.ReducesTo [2] S4096x32
  reducesTo_S4096x32_S_d0_1 : S4096x32.ReducesTo [0, 1] S_
  transposes_S64x4096_S4096x64_1_0 : S64x4096.Transposes [1, 0] S4096x64
  transposes_S64x4096x32_S4096x32x64_1_2_0 : S64x4096x32.Transposes [1, 2, 0] S4096x32x64
  reducesTo_S4096x30000_S_d0_1 : S4096x30000.ReducesTo [0, 1] S_
  slices_S3_S1_0 : S3.Slices ![0] S1
  shapeCasts_S1_S_ : S1.ShapeCasts S_
  slices_S3_S1_1 : S3.Slices ![1] S1
  slices_S3_S1_2 : S3.Slices ![2] S1
  gather_S200000x64_S4096x1_S4096x64_1_0_n_n_0_1_164_wf : GatherDims.WF S200000x64 S4096x1 S4096x64 [1] [0] [] [0] [] 1 ![1, 64]
  gather_S200000x64_S4096x32x1_S4096x32x64_2_0_n_n_0_2_164_wf : GatherDims.WF S200000x64 S4096x32x1 S4096x32x64 [2] [0] [] [0] [] 2 ![1, 64]
  gather_S64x30000_S4096x1_S64x4096_0_1_n_n_1_1_641_wf : GatherDims.WF S64x30000 S4096x1 S64x4096 [0] [1] [] [1] [] 1 ![64, 1]
  gather_S64x30000_S4096x32x1_S64x4096x32_0_1_n_n_1_2_641_wf : GatherDims.WF S64x30000 S4096x32x1 S64x4096x32 [0] [1] [] [1] [] 2 ![64, 1]

variable [Facts₀]

def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S200000x64_S4096x32x1_S4096x32x64_2_0_n_n_0_2_164 : GatherDims S200000x64 S4096x32x1 S4096x32x64 where
  offsetDims := [2]
  collapsedSliceDims := [0]
  operandBatchingDims := []
  startIndicesBatchingDims := []
  startIndexMap := [0]
  indexVectorDim := 2
  sliceSizes := ![1, 64]
  wf := gather_S200000x64_S4096x32x1_S4096x32x64_2_0_n_n_0_2_164_wf
def gather_S64x30000_S4096x1_S64x4096_0_1_n_n_1_1_641 : GatherDims S64x30000 S4096x1 S64x4096 where
  offsetDims := [0]
  collapsedSliceDims := [1]
  operandBatchingDims := []
  startIndicesBatchingDims := []
  startIndexMap := [1]
  indexVectorDim := 1
  sliceSizes := ![64, 1]
  wf := gather_S64x30000_S4096x1_S64x4096_0_1_n_n_1_1_641_wf
def gather_S64x30000_S4096x32x1_S64x4096x32_0_1_n_n_1_2_641 : GatherDims S64x30000 S4096x32x1 S64x4096x32 where
  offsetDims := [0]
  collapsedSliceDims := [1]
  operandBatchingDims := []
  startIndicesBatchingDims := []
  startIndexMap := [1]
  indexVectorDim := 2
  sliceSizes := ![64, 1]
  wf := gather_S64x30000_S4096x32x1_S64x4096x32_0_1_n_n_1_2_641_wf

class Facts : Prop extends Facts₀ where

variable [Facts]
-- ==== Proof.HostWalk.lean ====
/-
  The result buffer at the last segment boundary, walked back through @main's host stretches. The three host
  stretches between and after the reduction kernels compute: the two similarity penalties (gathers of rows of the
  entity table and of columns of the word table, pairwise distances, a weighted total), the square roots of the three
  kernels' totals, and the weighted combination. Each kernel's output array enters as the array its region leaves.
-/
import proofs.«124842_j61460982006014_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable {F : FTy → Type} [FloatOps F]

/-- The entity penalty: for each batch row and each of its 32 neighbours, the distance between the row of the table
    the batch entity indexes and the row the neighbour indexes (a negative index counted from the end), weighted,
    totalled. -/
def penE (E : (⟨S200000x64, .f32⟩ : BufTy).Contents (Elt F)) (Sv : (⟨S4096x32, .f32⟩ : BufTy).Contents (Elt F))
    (be : (⟨S4096, .i32⟩ : BufTy).Contents (Elt F)) (Si : (⟨S4096x32, .i32⟩ : BufTy).Contents (Elt F)) :
    (⟨S_, .f32⟩ : BufTy).Contents (Elt F) :=
  (Host.reduceAdd (mulf (Host.sqrt (Host.reduceAdd (mulf (subf (broadcastInDim S4096x32x64 ![0, 1, 2] bcast_S4096x1x64_S4096x32x64_0_1_2 (broadcastInDim S4096x1x64 ![0, 2] bcast_S4096x64_S4096x1x64_0_2 (Host.gather gather_S200000x64_S4096x1_S4096x64_1_0_n_n_0_1_164 E (broadcastInDim S4096x1 ![0] bcast_S4096_S4096x1_0 (select (cmpi .slt be (broadcastInDim S4096 ![] bcast_S_S4096 (constantI S_ 32 0#32))) (addi be (broadcastInDim S4096 ![] bcast_S_S4096 (constantI S_ 32 200000#32))) be))))) (Host.gather gather_S200000x64_S4096x32x1_S4096x32x64_2_0_n_n_0_2_164 E (broadcastInDim S4096x32x1 ![0, 1] bcast_S4096x32_S4096x32x1_0_1 (select (cmpi .slt Si (broadcastInDim S4096x32 ![] bcast_S_S4096x32 (constantI S_ 32 0#32))) (addi Si (broadcastInDim S4096x32 ![] bcast_S_S4096x32 (constantI S_ 32 200000#32))) Si)))) (subf (broadcastInDim S4096x32x64 ![0, 1, 2] bcast_S4096x1x64_S4096x32x64_0_1_2 (broadcastInDim S4096x1x64 ![0, 2] bcast_S4096x64_S4096x1x64_0_2 (Host.gather gather_S200000x64_S4096x1_S4096x64_1_0_n_n_0_1_164 E (broadcastInDim S4096x1 ![0] bcast_S4096_S4096x1_0 (select (cmpi .slt be (broadcastInDim S4096 ![] bcast_S_S4096 (constantI S_ 32 0#32))) (addi be (broadcastInDim S4096 ![] bcast_S_S4096 (constantI S_ 32 200000#32))) be))))) (Host.gather gather_S200000x64_S4096x32x1_S4096x32x64_2_0_n_n_0_2_164 E (broadcastInDim S4096x32x1 ![0, 1] bcast_S4096x32_S4096x32x1_0_1 (select (cmpi .slt Si (broadcastInDim S4096x32 ![] bcast_S_S4096x32 (constantI S_ 32 0#32))) (addi Si (broadcastInDim S4096x32 ![] bcast_S_S4096x32 (constantI S_ 32 200000#32))) Si))))) (constant S_ .f32 0x00000000#32) reducesTo_S4096x32x64_S4096x32_d2 h_S_)) Sv) (constant S_ .f32 0x00000000#32) reducesTo_S4096x32_S_d0_1 h_S_)

/-- The word penalty: the same over columns of the [64, 30000] table, transposed to rows. -/
def penW (Wt : (⟨S64x30000, .f32⟩ : BufTy).Contents (Elt F)) (Sv : (⟨S4096x32, .f32⟩ : BufTy).Contents (Elt F))
    (bw : (⟨S4096, .i32⟩ : BufTy).Contents (Elt F)) (Si : (⟨S4096x32, .i32⟩ : BufTy).Contents (Elt F)) :
    (⟨S_, .f32⟩ : BufTy).Contents (Elt F) :=
  (Host.reduceAdd (mulf (Host.sqrt (Host.reduceAdd (mulf (subf (broadcastInDim S4096x32x64 ![0, 1, 2] bcast_S4096x1x64_S4096x32x64_0_1_2 (broadcastInDim S4096x1x64 ![0, 2] bcast_S4096x64_S4096x1x64_0_2 (transpose S4096x64 [1, 0] (Host.gather gather_S64x30000_S4096x1_S64x4096_0_1_n_n_1_1_641 Wt (broadcastInDim S4096x1 ![0] bcast_S4096_S4096x1_0 (select (cmpi .slt bw (broadcastInDim S4096 ![] bcast_S_S4096 (constantI S_ 32 0#32))) (addi bw (broadcastInDim S4096 ![] bcast_S_S4096 (constantI S_ 32 30000#32))) bw))) transposes_S64x4096_S4096x64_1_0))) (transpose S4096x32x64 [1, 2, 0] (Host.gather gather_S64x30000_S4096x32x1_S64x4096x32_0_1_n_n_1_2_641 Wt (broadcastInDim S4096x32x1 ![0, 1] bcast_S4096x32_S4096x32x1_0_1 (select (cmpi .slt Si (broadcastInDim S4096x32 ![] bcast_S_S4096x32 (constantI S_ 32 0#32))) (addi Si (broadcastInDim S4096x32 ![] bcast_S_S4096x32 (constantI S_ 32 30000#32))) Si))) transposes_S64x4096x32_S4096x32x64_1_2_0)) (subf (broadcastInDim S4096x32x64 ![0, 1, 2] bcast_S4096x1x64_S4096x32x64_0_1_2 (broadcastInDim S4096x1x64 ![0, 2] bcast_S4096x64_S4096x1x64_0_2 (transpose S4096x64 [1, 0] (Host.gather gather_S64x30000_S4096x1_S64x4096_0_1_n_n_1_1_641 Wt (broadcastInDim S4096x1 ![0] bcast_S4096_S4096x1_0 (select (cmpi .slt bw (broadcastInDim S4096 ![] bcast_S_S4096 (constantI S_ 32 0#32))) (addi bw (broadcastInDim S4096 ![] bcast_S_S4096 (constantI S_ 32 30000#32))) bw))) transposes_S64x4096_S4096x64_1_0))) (transpose S4096x32x64 [1, 2, 0] (Host.gather gather_S64x30000_S4096x32x1_S64x4096x32_0_1_n_n_1_2_641 Wt (broadcastInDim S4096x32x1 ![0, 1] bcast_S4096x32_S4096x32x1_0_1 (select (cmpi .slt Si (broadcastInDim S4096x32 ![] bcast_S_S4096x32 (constantI S_ 32 0#32))) (addi Si (broadcastInDim S4096x32 ![] bcast_S_S4096x32 (constantI S_ 32 30000#32))) Si))) transposes_S64x4096x32_S4096x32x64_1_2_0))) (constant S_ .f32 0x00000000#32) reducesTo_S4096x32x64_S4096x32_d2 h_S_)) Sv) (constant S_ .f32 0x00000000#32) reducesTo_S4096x32_S_d0_1 h_S_)

/-- The loss from its parts: the root of the third kernel's total, plus the two penalties and the sum of the roots
    of the first two kernels' totals, each weighted by its entry of the three weights. -/
def total (reg : (⟨S3, .f32⟩ : BufTy).Contents (Elt F)) (o0 : (⟨S25x8x128, .f32⟩ : BufTy).Contents (Elt F))
    (o1 : (⟨S1x8x128, .f32⟩ : BufTy).Contents (Elt F)) (o2 : (⟨S64x8x128, .f32⟩ : BufTy).Contents (Elt F))
    (pe pw : (⟨S_, .f32⟩ : BufTy).Contents (Elt F)) : (⟨S_, .f32⟩ : BufTy).Contents (Elt F) :=
  addf (addf (addf (Host.sqrt (Host.reduceAdd o2 (constant S_ .f32 0x00000000#32) reducesTo_S64x8x128_S_d0_1_2 h_S_))
      (mulf (shapeCast _ (extractStridedSlice S1 ![0] reg slices_S3_S1_0) shapeCasts_S1_S_) pe))
      (mulf (shapeCast _ (extractStridedSlice S1 ![1] reg slices_S3_S1_1) shapeCasts_S1_S_) pw))
    (mulf (shapeCast _ (extractStridedSlice S1 ![2] reg slices_S3_S1_2) shapeCasts_S1_S_)
      (addf (Host.sqrt (Host.reduceAdd o0 (constant S_ .f32 0x00000000#32) reducesTo_S25x8x128_S_d0_1_2 h_S_))
            (Host.sqrt (Host.reduceAdd o1 (constant S_ .f32 0x00000000#32) reducesTo_S1x8x128_S_d0_1_2 h_S_))))

variable (m : (ℓ : Loc nD τ sig) → Buf (Elt F) ℓ) (ρ : Dev nD → PrngReg)

/-- A host stretch leaves a buffer that none of its operations writes as it found it. -/
local macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The second kernel's table is still the launch's when its region is entered. -/
theorem V2_arg4 (c : Dev nD) : V2 m ρ c main_arg4 = m ((c : Thread nD τ).loc main_arg4) :=
  calc W2 m ρ c (Proc.devRef .tc main_arg4)
    _ = W1 m ρ c (Proc.devRef .tc main_arg4) := by host_keeps hostOps1
    _ = W0 m ρ c (Proc.devRef .tc main_arg4) := W1_of_ne m ρ c main_arg4 (by decide)
    _ = m ((c : Thread nD τ).loc main_arg4) := rfl

/-- The third kernel's two inputs are still the launch's when its region is entered. -/
theorem V4_arg0 (c : Dev nD) : V4 m ρ c main_arg0 = m ((c : Thread nD τ).loc main_arg0) :=
  calc W4 m ρ c (Proc.devRef .tc main_arg0)
    _ = W3 m ρ c (Proc.devRef .tc main_arg0) := by host_keeps hostOps2
    _ = W2 m ρ c (Proc.devRef .tc main_arg0) := W3_of_ne m ρ c main_arg0 (by decide)
    _ = W1 m ρ c (Proc.devRef .tc main_arg0) := by host_keeps hostOps1
    _ = W0 m ρ c (Proc.devRef .tc main_arg0) := W1_of_ne m ρ c main_arg0 (by decide)
    _ = m ((c : Thread nD τ).loc main_arg0) := rfl
theorem V4_arg1 (c : Dev nD) : V4 m ρ c main_arg1 = m ((c : Thread nD τ).loc main_arg1) :=
  calc W4 m ρ c (Proc.devRef .tc main_arg1)
    _ = W3 m ρ c (Proc.devRef .tc main_arg1) := by host_keeps hostOps2
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := W1_of_ne m ρ c main_arg1 (by decide)
    _ = m ((c : Thread nD τ).loc main_arg1) := rfl

/-! ### The launch's arrays at the second region's exit: no host operation and no region writes one -/

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by host_keeps hostOps1
    _ = W0 m ρ c (Proc.devRef .tc main_arg3) :=
        (W1_arr m ρ c 0).trans (((dat0 (V0 m ρ) c).arrAt_in 0 rfl _).trans (A_eq0 (V0 m ρ) c 0))
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) :=
        (W3_arr m ρ c 0).trans (((dat1 (V2 m ρ) c).arrAt_in 0 rfl _).trans (A_eq1 (V2 m ρ) c 0))
    _ = m ((c : Thread nD τ).loc main_arg4) := V2_arg4 m ρ c
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := by host_keeps hostOps1
    _ = W0 m ρ c (Proc.devRef .tc main_arg5) := W1_of_ne m ρ c main_arg5 (by decide)
    _ = m ((c : Thread nD τ).loc main_arg5) := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by host_keeps hostOps1
    _ = W0 m ρ c (Proc.devRef .tc main_arg6) := W1_of_ne m ρ c main_arg6 (by decide)
    _ = m ((c : Thread nD τ).loc main_arg6) := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := by host_keeps hostOps1
    _ = W0 m ρ c (Proc.devRef .tc main_arg7) := W1_of_ne m ρ c main_arg7 (by decide)
    _ = m ((c : Thread nD τ).loc main_arg7) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by host_keeps hostOps1
    _ = W0 m ρ c (Proc.devRef .tc main_arg8) := W1_of_ne m ρ c main_arg8 (by decide)
    _ = m ((c : Thread nD τ).loc main_arg8) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by host_keeps hostOps1
    _ = W0 m ρ c (Proc.devRef .tc main_arg9) := W1_of_ne m ρ c main_arg9 (by decide)
    _ = m ((c : Thread nD τ).loc main_arg9) := rfl
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := by host_keeps hostOps1
    _ = W0 m ρ c (Proc.devRef .tc main_arg10) := W1_of_ne m ρ c main_arg10 (by decide)
    _ = m ((c : Thread nD τ).loc main_arg10) := rfl
/-- The three weights at the third region's exit. -/
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := by host_keeps hostOps2
    _ = W2 m ρ c (Proc.devRef .tc main_arg2) := W3_of_ne m ρ c main_arg2 (by decide)
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

/-! ### The root of the first two kernels' totals, summed -/

/-- The first kernel's output array at its region's exit. -/
theorem W1_v0 (c : Dev nD) : W1 m ρ c (Proc.devRef .tc main_v0) = (dat0 (V0 m ρ) c).arrAt 1 cfg0.N := W1_arr m ρ c 1
/-- The second kernel's output array at its region's exit. -/
theorem W3_v3 (c : Dev nD) : W3 m ρ c (Proc.devRef .tc main_v3) = (dat1 (V2 m ρ) c).arrAt 1 cfg1.N := W3_arr m ρ c 1
/-- The third kernel's output array at its region's exit. -/
theorem W5_v53 (c : Dev nD) : W5 m ρ c (Proc.devRef .tc main_v53) = (dat2 (V4 m ρ) c).arrAt 2 cfg2.N := W5_arr m ρ c 2

/-- The first host stretch leaves the root of the first kernel's total. -/
theorem W2_v2 (c : Dev nD) :
    W2 m ρ c (Proc.devRef .tc main_v2)
      = Host.sqrt (Host.reduceAdd ((dat0 (V0 m ρ) c).arrAt 1 cfg0.N) (constant S_ .f32 0x00000000#32)
          reducesTo_S25x8x128_S_d0_1_2 h_S_) := by
  rw [← W1_v0 m ρ c]
  show StableHlo.after hostOps1 (W1 m ρ c) (Proc.devRef .tc main_v2) = _
  after_results

/-- The second host stretch leaves the sum of the roots of the first two kernels' totals. -/
theorem W4_v6 (c : Dev nD) :
    W4 m ρ c (Proc.devRef .tc main_v6)
      = addf (Host.sqrt (Host.reduceAdd ((dat0 (V0 m ρ) c).arrAt 1 cfg0.N) (constant S_ .f32 0x00000000#32)
                reducesTo_S25x8x128_S_d0_1_2 h_S_))
             (Host.sqrt (Host.reduceAdd ((dat1 (V2 m ρ) c).arrAt 1 cfg1.N) (constant S_ .f32 0x00000000#32)
                reducesTo_S1x8x128_S_d0_1_2 h_S_)) := by
  rw [← W3_v3 m ρ c, ← W2_v2 m ρ c, ← W3_of_ne m ρ c main_v2 (by decide)]
  show StableHlo.after hostOps2 (W3 m ρ c) (Proc.devRef .tc main_v6) = _
  after_results_simp

/-! ### The two penalties -/

/-- The second host stretch leaves the entity penalty of the launch's arrays. -/
theorem W4_v28 (c : Dev nD) :
    W4 m ρ c (Proc.devRef .tc main_v28)
      = penE (m ((c : Thread nD τ).loc main_arg3)) (m ((c : Thread nD τ).loc main_arg5))
          (m ((c : Thread nD τ).loc main_arg7)) (m ((c : Thread nD τ).loc main_arg9)) := by
  rw [← W3_arg3 m ρ c, ← W3_arg5 m ρ c, ← W3_arg7 m ρ c, ← W3_arg9 m ρ c]
  show StableHlo.after hostOps2 (W3 m ρ c) (Proc.devRef .tc main_v28) = _
  unfold penE
  after_results_simp

/-- The second host stretch leaves the word penalty of the launch's arrays. -/
theorem W4_v52 (c : Dev nD) :
    W4 m ρ c (Proc.devRef .tc main_v52)
      = penW (m ((c : Thread nD τ).loc main_arg4)) (m ((c : Thread nD τ).loc main_arg6))
          (m ((c : Thread nD τ).loc main_arg8)) (m ((c : Thread nD τ).loc main_arg10)) := by
  rw [← W3_arg4 m ρ c, ← W3_arg6 m ρ c, ← W3_arg8 m ρ c, ← W3_arg10 m ρ c]
  show StableHlo.after hostOps2 (W3 m ρ c) (Proc.devRef .tc main_v52) = _
  unfold penW
  after_results_simp

/-! ### The last stretch's operands at the third region's exit: that region owns none of the three -/

theorem W5_v6 (c : Dev nD) :
    W5 m ρ c (Proc.devRef .tc main_v6)
      = addf (Host.sqrt (Host.reduceAdd ((dat0 (V0 m ρ) c).arrAt 1 cfg0.N) (constant S_ .f32 0x00000000#32)
                reducesTo_S25x8x128_S_d0_1_2 h_S_))
             (Host.sqrt (Host.reduceAdd ((dat1 (V2 m ρ) c).arrAt 1 cfg1.N) (constant S_ .f32 0x00000000#32)
                reducesTo_S1x8x128_S_d0_1_2 h_S_)) :=
  (W5_of_ne m ρ c main_v6 (by decide)).trans (W4_v6 m ρ c)
theorem W5_v28 (c : Dev nD) :
    W5 m ρ c (Proc.devRef .tc main_v28)
      = penE (m ((c : Thread nD τ).loc main_arg3)) (m ((c : Thread nD τ).loc main_arg5))
          (m ((c : Thread nD τ).loc main_arg7)) (m ((c : Thread nD τ).loc main_arg9)) :=
  (W5_of_ne m ρ c main_v28 (by decide)).trans (W4_v28 m ρ c)
theorem W5_v52 (c : Dev nD) :
    W5 m ρ c (Proc.devRef .tc main_v52)
      = penW (m ((c : Thread nD τ).loc main_arg4)) (m ((c : Thread nD τ).loc main_arg6))
          (m ((c : Thread nD τ).loc main_arg8)) (m ((c : Thread nD τ).loc main_arg10)) :=
  (W5_of_ne m ρ c main_v52 (by decide)).trans (W4_v52 m ρ c)

/-- The result buffer at the last boundary: the loss of the three regions' output arrays, the weights and the two
    penalties of the launch's arrays. -/
theorem W6_out (c : Dev nD) :
    W6 m ρ c (Proc.devRef .tc main_v67)
      = total (m ((c : Thread nD τ).loc main_arg2))
          ((dat0 (V0 m ρ) c).arrAt 1 cfg0.N) ((dat1 (V2 m ρ) c).arrAt 1 cfg1.N) ((dat2 (V4 m ρ) c).arrAt 2 cfg2.N)
          (penE (m ((c : Thread nD τ).loc main_arg3)) (m ((c : Thread nD τ).loc main_arg5)) (m ((c : Thread nD τ).loc main_arg7)) (m ((c : Thread nD τ).loc main_arg9)))
          (penW (m ((c : Thread nD τ).loc main_arg4)) (m ((c : Thread nD τ).loc main_arg6)) (m ((c : Thread nD τ).loc main_arg8)) (m ((c : Thread nD τ).loc main_arg10))) := by
  show StableHlo.after hostOps3 (W5 m ρ c) (Proc.devRef .tc main_v67) = _
  after_results_simp
  rw [W5_v53 m ρ c, W5_arg2 m ρ c, W5_v28 m ρ c, W5_v52 m ρ c, W5_v6 m ρ c]
  unfold total
  rfl

end Cert.KernelIdeal.Hand

end
-- ==== Proof.Region0.lean ====
/-
  The first reduction kernel's output array, as one function of the table it reads. Grid point b reads rows
  8000·b … 8000·b + 7999 of the [200000, 64] table as one block and writes block b of the [25, 8, 128] output: the
  body's tile of that block. The output's 25 blocks tile it, so after the run the array is that function everywhere.
-/
import proofs.«124842_j61460982006014_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

/-- Rows 8000·b … 8000·b + 7999 of the table, as a block. -/
def rows0 (A : S200000x64.Idx → Elt F .f32) (b : Fin 25) : Vec F S8000x64 .f32 :=
  fun y => A (ix2 ⟨8000 * b.val + (y 0).val, by have h : (y 0).val < 8000 := (y 0).isLt; have := b.isLt; omega⟩ ⟨(y 1).val, (y 1).isLt⟩)

/-- The output array: at (b, r, l) the body's tile of block b, read at (0, r, l). -/
def arr0 (A : S200000x64.Idx → Elt F .f32) : S25x8x128.Idx → Elt F .f32 :=
  fun i => k0_pay1 (rows0 A (i 0)) (ix3 (0 : Fin 1) (i 1) (i 2))

/-- The zero offsets of a rank-2 and of a rank-3 block, as constant functions. -/
theorem hzIn0 : (![0, 0] : Fin 2 → Nat) = fun _ => 0 := funext fun a => by fin_cases a <;> rfl
theorem hzOut0 : (![0, 0, 0] : Fin 3 → Nat) = fun _ => 0 := funext fun a => by fin_cases a <;> rfl

/-- The printed index maps, decided once over the grid: point t reads block (t, 0) and writes block (t, 0, 0). -/
theorem idx_facts0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

set_option maxHeartbeats 400000 in
/-- The input block at point t is rows 8000·t … 8000·t + 7999 of the table. -/
theorem iblk0_eq (c : Dev nD) (t : Fin cfg0.N) (b : Fin 25) (hb : b.val = t.val) :
    (iblk0 V c 0 t : Vec F S8000x64 .f32) = rows0 (V c main_arg3) b := by
  obtain ⟨e0, e1, -, -, -⟩ := idx_facts0 t
  funext y
  unfold iblk0 rows0
  rw [View.read_apply]
  show V c main_arg3 _ = V c main_arg3 _
  refine congrArg _ ?_
  funext a
  apply Fin.ext
  match a with
  | ⟨0, _⟩ => show win0_0.index t (0 : Fin 2) * 8000 + 1 * (y 0).val = 8000 * b.val + (y 0).val; rw [e0, hb]; omega
  | ⟨1, _⟩ => show win0_0.index t (1 : Fin 2) * 64 + 1 * (y 1).val = (y 1).val; rw [e1]; omega

set_option maxHeartbeats 400000 in
/-- The body's tile of point t's input block, read at x, is `arr0` at any index i of the output array whose first
    coordinate is t and whose other two are x's. -/
theorem pay0_at (c : Dev nD) (t : Fin cfg0.N) (x : S1x8x128.Idx) (i : S25x8x128.Idx)
    (h0 : (i 0).val = t.val) (h1 : (i 1).val = (x 1).val) (h2 : (i 2).val = (x 2).val) :
    k0_pay1 (iblk0 V c 0 t) x = arr0 (V c main_arg3) i := by
  unfold arr0
  rw [iblk0_eq V c t (i 0) h0]
  refine congrArg (k0_pay1 (rows0 (V c main_arg3) (i 0))) ?_
  funext a
  apply Fin.ext
  match a with
  | ⟨0, _⟩ => show (x 0).val = 0; have hx : (x 0).val < 1 := (x 0).isLt; omega
  | ⟨1, _⟩ => exact h1.symm
  | ⟨2, _⟩ => exact h2.symm

set_option maxHeartbeats 400000 in
/-- What point t writes back is block t of `arr0` of the table. -/
theorem flushed0_eq (c : Dev nD) (t : Fin cfg0.N) :
    (dat0 V c).flushed 1 t = ((cfg0.win 1).blk t).view.read (Elt F) (arr0 (V c main_arg3)) := by
  show (cfg0.win 1).cut (grid0.coords t) ((dat0 V c).after 1 t) = _
  rw [after0_1]
  unfold out0_1
  rw [View.canon_unit_zero hzOut0]
  simp only [View.ld_unit_zero (S := S8000x64) hzIn0]
  obtain ⟨-, -, e2, e3, e4⟩ := idx_facts0 t
  funext j
  show k0_pay1 (iblk0 V c 0 t) _ = arr0 (V c main_arg3) (((cfg0.win 1).blk t).view.emb j)
  refine pay0_at V c t _ _ ?_ ?_ ?_
  · show win0_1.index t (0 : Fin 3) * 1 + 1 * (j 0).val = t.val
    have hj : (j 0).val < 1 := (j 0).isLt
    rw [e2]; omega
  · show win0_1.index t (1 : Fin 3) * 8 + 1 * (j 1).val = (j 1).val
    rw [e3]; omega
  · show win0_1.index t (2 : Fin 3) * 128 + 1 * (j 2).val = (j 2).val
    rw [e4]; omega

/-- An index of the output array is in point t's block iff each coordinate is in the block's range on its axis. -/
theorem mem_blk0 (t : Fin cfg0.N) (i : S25x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v0).slice (win0_1.rect t)).set ↔ _
  rw [View.set_slice_whole, Rect.mem_set_unit]
  exact Iff.rfl

set_option maxHeartbeats 400000 in
/-- The 25 blocks tile the output array: index (b, r, l) lies in the block of point b. -/
theorem cover0 (i : S25x8x128.Idx) :
    ∃ t : Fin cfg0.N, (cfg0.win 1).flush t = true ∧ i ∈ ((cfg0.win 1).blk t).view.set := by
  have hi0 : (i 0).val < 25 := (i 0).isLt
  have hi1 : (i 1).val < 8 := (i 1).isLt
  have hi2 : (i 2).val < 128 := (i 2).isLt
  obtain ⟨t, ht⟩ : ∃ t : Fin cfg0.N, t.val = (i 0).val :=
    ⟨⟨(i 0).val, by rw [show cfg0.N = 25 from N_0]; exact hi0⟩, rfl⟩
  obtain ⟨-, -, e2, e3, e4⟩ := idx_facts0 t
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; rw [e2]; omega
  | ⟨1, _⟩ => show win0_1.index t (1 : Fin 3) * 8 ≤ (i 1).val ∧ (i 1).val < win0_1.index t (1 : Fin 3) * 8 + 8; rw [e3]; omega
  | ⟨2, _⟩ => show win0_1.index t (2 : Fin 3) * 128 ≤ (i 2).val ∧ (i 2).val < win0_1.index t (2 : Fin 3) * 128 + 128; rw [e4]; omega

/-- After the run the output array is `arr0` of the table as the region found it. -/
theorem final0 (c : Dev nD) : (dat0 V c).arrAt 1 cfg0.N = arr0 (V c main_arg3) :=
  (dat0 V c).arrAt_eq_of_cover 1 (arr0 (V c main_arg3)) (fun t _ => flushed0_eq V c t) cover0

end Cert.KernelIdeal.Hand

end
-- ==== Proof.Region1.lean ====
/-
  The second reduction kernel's output array. Its grid has one point, which reads the whole [64, 30000] table as its
  block and writes the whole [1, 8, 128] output: the body's tile of the table.
-/
import proofs.«124842_j61460982006014_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

/-- The output array: at (0, r, l) the body's tile of the whole table, read at (0, r, l). -/
def arr1 (A : S64x30000.Idx → Elt F .f32) : S1x8x128.Idx → Elt F .f32 :=
  fun i => k1_pay1 A (ix3 (0 : Fin 1) (i 1) (i 2))

/-- The zero offsets of a rank-2 and of a rank-3 block, as constant functions. -/
theorem hzIn1 : (![0, 0] : Fin 2 → Nat) = fun _ => 0 := funext fun a => by fin_cases a <;> rfl
theorem hzOut1 : (![0, 0, 0] : Fin 3 → Nat) = fun _ => 0 := funext fun a => by fin_cases a <;> rfl

/-- The printed index maps, decided once over the grid: the one point reads block (0, 0) and writes block (0, 0, 0). -/
theorem idx_facts1 : ∀ t : Fin cfg1.N, win1_0.index t (0 : Fin 2) = 0 ∧ win1_0.index t (1 : Fin 2) = 0
    ∧ win1_1.index t (0 : Fin 3) = 0 ∧ win1_1.index t (1 : Fin 3) = 0 ∧ win1_1.index t (2 : Fin 3) = 0 :=
  (by decide +kernel : ∀ t : Fin grid1.N, _)

set_option maxHeartbeats 400000 in
/-- The input block is the whole table. -/
theorem iblk1_eq (c : Dev nD) (t : Fin cfg1.N) :
    (iblk1 V c 0 t : Vec F S64x30000 .f32) = V c main_arg4 := by
  obtain ⟨e0, e1, -, -, -⟩ := idx_facts1 t
  funext y
  unfold iblk1
  rw [View.read_apply]
  show V c main_arg4 _ = V c main_arg4 y
  refine congrArg _ ?_
  funext a
  apply Fin.ext
  match a with
  | ⟨0, _⟩ => show win1_0.index t (0 : Fin 2) * 64 + 1 * (y 0).val = (y 0).val; rw [e0]; omega
  | ⟨1, _⟩ => show win1_0.index t (1 : Fin 2) * 30000 + 1 * (y 1).val = (y 1).val; rw [e1]; omega

set_option maxHeartbeats 400000 in
/-- The body's tile of the input block, read at x, is `arr1` at any index i of the output array whose last two
    coordinates are x's. -/
theorem pay1_at (c : Dev nD) (t : Fin cfg1.N) (x : S1x8x128.Idx) (i : S1x8x128.Idx)
    (h1 : (i 1).val = (x 1).val) (h2 : (i 2).val = (x 2).val) :
    k1_pay1 (iblk1 V c 0 t) x = arr1 (V c main_arg4) i := by
  unfold arr1
  rw [iblk1_eq V c t]
  refine congrArg (k1_pay1 (V c main_arg4)) ?_
  funext a
  apply Fin.ext
  match a with
  | ⟨0, _⟩ => show (x 0).val = 0; have hx : (x 0).val < 1 := (x 0).isLt; omega
  | ⟨1, _⟩ => exact h1.symm
  | ⟨2, _⟩ => exact h2.symm

set_option maxHeartbeats 400000 in
/-- What the point writes back is its block (the whole array) of `arr1` of the table. -/
theorem flushed1_eq (c : Dev nD) (t : Fin cfg1.N) :
    (dat1 V c).flushed 1 t = ((cfg1.win 1).blk t).view.read (Elt F) (arr1 (V c main_arg4)) := by
  show (cfg1.win 1).cut (grid1.coords t) ((dat1 V c).after 1 t) = _
  rw [after1_1]
  unfold out1_1
  rw [View.canon_unit_zero hzOut1]
  simp only [View.ld_unit_zero (S := S64x30000) hzIn1]
  obtain ⟨-, -, e2, e3, e4⟩ := idx_facts1 t
  funext j
  show k1_pay1 (iblk1 V c 0 t) _ = arr1 (V c main_arg4) (((cfg1.win 1).blk t).view.emb j)
  refine pay1_at V c t _ _ ?_ ?_
  · show win1_1.index t (1 : Fin 3) * 8 + 1 * (j 1).val = (j 1).val
    rw [e3]; omega
  · show win1_1.index t (2 : Fin 3) * 128 + 1 * (j 2).val = (j 2).val
    rw [e4]; omega

/-- An index of the output array is in point t's block iff each coordinate is in the block's range on its axis. -/
theorem mem_blk1 (t : Fin cfg1.N) (i : S1x8x128.Idx) :
    i ∈ ((cfg1.win 1).blk t).view.set ↔ ∀ a : Fin 3, win1_1.index t a * S1x8x128.size a ≤ (i a).val ∧ (i a).val < win1_1.index t a * S1x8x128.size a + S1x8x128.size a := by
  show i ∈ ((View.whole main_v3).slice (win1_1.rect t)).set ↔ _
  rw [View.set_slice_whole, Rect.mem_set_unit]
  exact Iff.rfl

set_option maxHeartbeats 400000 in
/-- The one block is the whole output array. -/
theorem cover1 (i : S1x8x128.Idx) :
    ∃ t : Fin cfg1.N, (cfg1.win 1).flush t = true ∧ i ∈ ((cfg1.win 1).blk t).view.set := by
  have hi0 : (i 0).val < 1 := (i 0).isLt
  have hi1 : (i 1).val < 8 := (i 1).isLt
  have hi2 : (i 2).val < 128 := (i 2).isLt
  obtain ⟨-, -, e2, e3, e4⟩ := idx_facts1 t1_0
  refine ⟨t1_0, flush1_1 t1_0, ?_⟩
  rw [mem_blk1]
  intro a
  match a with
  | ⟨0, _⟩ => show win1_1.index t1_0 (0 : Fin 3) * 1 ≤ (i 0).val ∧ (i 0).val < win1_1.index t1_0 (0 : Fin 3) * 1 + 1; rw [e2]; omega
  | ⟨1, _⟩ => show win1_1.index t1_0 (1 : Fin 3) * 8 ≤ (i 1).val ∧ (i 1).val < win1_1.index t1_0 (1 : Fin 3) * 8 + 8; rw [e3]; omega
  | ⟨2, _⟩ => show win1_1.index t1_0 (2 : Fin 3) * 128 ≤ (i 2).val ∧ (i 2).val < win1_1.index t1_0 (2 : Fin 3) * 128 + 128; rw [e4]; omega

/-- After the run the output array is `arr1` of the table as the region found it. -/
theorem final1 (c : Dev nD) : (dat1 V c).arrAt 1 cfg1.N = arr1 (V c main_arg4) :=
  (dat1 V c).arrAt_eq_of_cover 1 (arr1 (V c main_arg4)) (fun t _ => flushed1_eq V c t) cover1

end Cert.KernelIdeal.Hand

end
-- ==== Proof.Region2.lean ====
/-
  The third reduction kernel's output array. Grid point b reads rows 64·b … 64·b + 63 of each of the two
  [4096, 30000] arrays as one block and writes block b of the [64, 8, 128] output: the body's tile of the two blocks.
  The output's 64 blocks tile it.
-/
import proofs.«124842_j61460982006014_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

/-- Rows 64·b … 64·b + 63 of a [4096, 30000] array, as a block. -/
def rows2 (A : S4096x30000.Idx → Elt F .f32) (b : Fin 64) : Vec F S64x30000 .f32 :=
  fun y => A (ix2 ⟨64 * b.val + (y 0).val, by have h : (y 0).val < 64 := (y 0).isLt; have := b.isLt; omega⟩ ⟨(y 1).val, (y 1).isLt⟩)

/-- The output array: at (b, r, l) the body's tile of the two arrays' blocks b, read at (0, r, l). -/
def arr2 (A B : S4096x30000.Idx → Elt F .f32) : S64x8x128.Idx → Elt F .f32 :=
  fun i => k2_pay1 (rows2 A (i 0)) (rows2 B (i 0)) (ix3 (0 : Fin 1) (i 1) (i 2))

/-- The zero offsets of a rank-2 and of a rank-3 block, as constant functions. -/
theorem hzIn2 : (![0, 0] : Fin 2 → Nat) = fun _ => 0 := funext fun a => by fin_cases a <;> rfl
theorem hzOut2 : (![0, 0, 0] : Fin 3 → Nat) = fun _ => 0 := funext fun a => by fin_cases a <;> rfl

/-- The printed index maps, decided once over the grid: point t reads block (t, 0) of each input and writes
    block (t, 0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

set_option maxHeartbeats 400000 in
/-- The first input's block at point t is rows 64·t … 64·t + 63 of the first array. -/
theorem iblk2_0_eq (c : Dev nD) (t : Fin cfg2.N) (b : Fin 64) (hb : b.val = t.val) :
    (iblk2 V c 0 t : Vec F S64x30000 .f32) = rows2 (V c main_arg0) b := by
  obtain ⟨e0, e1, -, -, -, -, -⟩ := idx_facts2 t
  funext y
  unfold iblk2 rows2
  rw [View.read_apply]
  show V c main_arg0 _ = V c main_arg0 _
  refine congrArg _ ?_
  funext a
  apply Fin.ext
  match a with
  | ⟨0, _⟩ => show win2_0.index t (0 : Fin 2) * 64 + 1 * (y 0).val = 64 * b.val + (y 0).val; rw [e0, hb]; omega
  | ⟨1, _⟩ => show win2_0.index t (1 : Fin 2) * 30000 + 1 * (y 1).val = (y 1).val; rw [e1]; omega

set_option maxHeartbeats 400000 in
/-- The second input's block at point t is rows 64·t … 64·t + 63 of the second array. -/
theorem iblk2_1_eq (c : Dev nD) (t : Fin cfg2.N) (b : Fin 64) (hb : b.val = t.val) :
    (iblk2 V c 1 t : Vec F S64x30000 .f32) = rows2 (V c main_arg1) b := by
  obtain ⟨-, -, e0, e1, -, -, -⟩ := idx_facts2 t
  funext y
  unfold iblk2 rows2
  rw [View.read_apply]
  show V c main_arg1 _ = V c main_arg1 _
  refine congrArg _ ?_
  funext a
  apply Fin.ext
  match a with
  | ⟨0, _⟩ => show win2_1.index t (0 : Fin 2) * 64 + 1 * (y 0).val = 64 * b.val + (y 0).val; rw [e0, hb]; omega
  | ⟨1, _⟩ => show win2_1.index t (1 : Fin 2) * 30000 + 1 * (y 1).val = (y 1).val; rw [e1]; omega

set_option maxHeartbeats 400000 in
/-- The body's tile of point t's two input blocks, read at x, is `arr2` at any index i of the output array whose
    first coordinate is t and whose other two are x's. -/
theorem pay2_at (c : Dev nD) (t : Fin cfg2.N) (x : S1x8x128.Idx) (i : S64x8x128.Idx)
    (h0 : (i 0).val = t.val) (h1 : (i 1).val = (x 1).val) (h2 : (i 2).val = (x 2).val) :
    k2_pay1 (iblk2 V c 0 t) (iblk2 V c 1 t) x = arr2 (V c main_arg0) (V c main_arg1) i := by
  unfold arr2
  rw [iblk2_0_eq V c t (i 0) h0, iblk2_1_eq V c t (i 0) h0]
  refine congrArg (k2_pay1 (rows2 (V c main_arg0) (i 0)) (rows2 (V c main_arg1) (i 0))) ?_
  funext a
  apply Fin.ext
  match a with
  | ⟨0, _⟩ => show (x 0).val = 0; have hx : (x 0).val < 1 := (x 0).isLt; omega
  | ⟨1, _⟩ => exact h1.symm
  | ⟨2, _⟩ => exact h2.symm

set_option maxHeartbeats 400000 in
/-- What point t writes back is block t of `arr2` of the two arrays. -/
theorem flushed2_eq (c : Dev nD) (t : Fin cfg2.N) :
    (dat2 V c).flushed 2 t = ((cfg2.win 2).blk t).view.read (Elt F) (arr2 (V c main_arg0) (V c main_arg1)) := by
  show (cfg2.win 2).cut (grid2.coords t) ((dat2 V c).after 2 t) = _
  rw [after2_2]
  unfold out2_2
  rw [View.canon_unit_zero hzOut2]
  simp only [View.ld_unit_zero (S := S64x30000) hzIn2]
  obtain ⟨-, -, -, -, e2, e3, e4⟩ := idx_facts2 t
  funext j
  show k2_pay1 (iblk2 V c 0 t) (iblk2 V c 1 t) _ = arr2 (V c main_arg0) (V c main_arg1) (((cfg2.win 2).blk t).view.emb j)
  refine pay2_at V c t _ _ ?_ ?_ ?_
  · show win2_2.index t (0 : Fin 3) * 1 + 1 * (j 0).val = t.val
    have hj : (j 0).val < 1 := (j 0).isLt
    rw [e2]; omega
  · show win2_2.index t (1 : Fin 3) * 8 + 1 * (j 1).val = (j 1).val
    rw [e3]; omega
  · show win2_2.index t (2 : Fin 3) * 128 + 1 * (j 2).val = (j 2).val
    rw [e4]; omega

/-- An index of the output array is in point t's block iff each coordinate is in the block's range on its axis. -/
theorem mem_blk2 (t : Fin cfg2.N) (i : S64x8x128.Idx) :
    i ∈ ((cfg2.win 2).blk t).view.set ↔ ∀ a : Fin 3, win2_2.index t a * S1x8x128.size a ≤ (i a).val ∧ (i a).val < win2_2.index t a * S1x8x128.size a + S1x8x128.size a := by
  show i ∈ ((View.whole main_v53).slice (win2_2.rect t)).set ↔ _
  rw [View.set_slice_whole, Rect.mem_set_unit]
  exact Iff.rfl

set_option maxHeartbeats 400000 in
/-- The 64 blocks tile the output array: index (b, r, l) lies in the block of point b. -/
theorem cover2 (i : S64x8x128.Idx) :
    ∃ t : Fin cfg2.N, (cfg2.win 2).flush t = true ∧ i ∈ ((cfg2.win 2).blk t).view.set := by
  have hi0 : (i 0).val < 64 := (i 0).isLt
  have hi1 : (i 1).val < 8 := (i 1).isLt
  have hi2 : (i 2).val < 128 := (i 2).isLt
  obtain ⟨t, ht⟩ : ∃ t : Fin cfg2.N, t.val = (i 0).val :=
    ⟨⟨(i 0).val, by rw [show cfg2.N = 64 from N_2]; exact hi0⟩, rfl⟩
  obtain ⟨-, -, -, -, e2, e3, e4⟩ := idx_facts2 t
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; rw [e2]; omega
  | ⟨1, _⟩ => show win2_2.index t (1 : Fin 3) * 8 ≤ (i 1).val ∧ (i 1).val < win2_2.index t (1 : Fin 3) * 8 + 8; rw [e3]; omega
  | ⟨2, _⟩ => show win2_2.index t (2 : Fin 3) * 128 ≤ (i 2).val ∧ (i 2).val < win2_2.index t (2 : Fin 3) * 128 + 128; rw [e4]; omega

/-- After the run the output array is `arr2` of the two arrays as the region found them. -/
theorem final2 (c : Dev nD) : (dat2 V c).arrAt 2 cfg2.N = arr2 (V c main_arg0) (V c main_arg1) :=
  (dat2 V c).arrAt_eq_of_cover 2 (arr2 (V c main_arg0) (V c main_arg1)) (fun t _ => flushed2_eq V c t) cover2

end Cert.KernelIdeal.Hand

end
-- ==== Proof.KernelValue.lean ====
/-
  The kernel program's run with its result named: the loss of the weights, of the three reduction kernels' output
  arrays as functions of the launch's arrays, and of the two penalties.
-/
import proofs.«124842_j61460982006014_1_alg».proof.Proof.KernelRun
import proofs.«124842_j61460982006014_1_alg».proof.Proof.HostWalk
import proofs.«124842_j61460982006014_1_alg».proof.Proof.Region0
import proofs.«124842_j61460982006014_1_alg».proof.Proof.Region1
import proofs.«124842_j61460982006014_1_alg».proof.Proof.Region2

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The result as a function of the launch's arrays. -/
def value (c : Dev nD) : Buf (Elt F) ((c : Thread nD τ).loc main_v67) :=
  total (m ((c : Thread nD τ).loc main_arg2))
    (arr0 (m ((c : Thread nD τ).loc main_arg3))) (arr1 (m ((c : Thread nD τ).loc main_arg4)))
    (arr2 (m ((c : Thread nD τ).loc main_arg0)) (m ((c : Thread nD τ).loc main_arg1)))
    (penE (m ((c : Thread nD τ).loc main_arg3)) (m ((c : Thread nD τ).loc main_arg5)) (m ((c : Thread nD τ).loc main_arg7)) (m ((c : Thread nD τ).loc main_arg9)))
    (penW (m ((c : Thread nD τ).loc main_arg4)) (m ((c : Thread nD τ).loc main_arg6)) (m ((c : Thread nD τ).loc main_arg8)) (m ((c : Thread nD τ).loc main_arg10)))

/-- The last boundary's contents of the result buffer is `value`. -/
theorem W6_value (c : Dev nD) : W6 m ρ c (Proc.devRef .tc main_v67) = value m c := by
  rw [W6_out m ρ c, final0 (V0 m ρ) c, final1 (V2 m ρ) c, final2 (V4 m ρ) c, V2_arg4 m ρ c, V4_arg0 m ρ c, V4_arg1 m ρ c]
  rfl

/-- Every weakly fair execution of @main terminates, nothing faulting, with the result at `value` and the arguments
    as launched. -/
theorem run_value : θ_run defs (onTc (τ := τ) (main (F := F))) ⟨m, fun _ => 0, ρ⟩ (fun r => ∀ c : Dev nD,
      r.2.mem ((c.tc : Thread nD τ).loc main_v67) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_value m ρ c), (h c).2⟩) (run_out m ρ)

end Cert.KernelIdeal.Hand

end
-- ==== Proof.LibTileSums.lean ====
/-
  Totals of arrays over their index types, free of any program: a total by coordinates at rank three, a total under
  a change of shape, the total of a vreg tile that holds one value at its origin and zero elsewhere, and a two-axis
  total regrouped by blocks of rows.
-/
import Idealize.ShloMosaic.Lib.ValueIdx
import Idealize.ShloMosaic.Lib.Affine
import Idealize.ShloMosaic.Lib.Pipeline.Value
import Idealize.ShloMosaic.PureOps.Ideal.Laws

open Idealize.ShloMosaic Idealize.ShloMosaic.ValueIdx
open scoped BigOperators

namespace TileSums

/-- A rank-3 index is its three coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- The total of a rank-3 array is the iterated total over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A change of shape keeps every element, so it keeps the total. -/
theorem sum_shapeCast {M : Type} [AddCommMonoid M] {s t : Shape} (x : s.Idx → M) (h : s.ShapeCasts t) :
    ∑ j : t.Idx, shapeCast t x h j = ∑ k : s.Idx, x k :=
  Equiv.sum_comp (Shape.reshapeEquiv h) x

/-- A 32-bit word of a natural below 2^32 is the zero word exactly when the natural is zero. -/
private theorem ofNat32_eq_zero {n : Nat} (hn : n < 2 ^ 32) : BitVec.ofNat 32 n = 0#32 ↔ n = 0 := by
  constructor
  · intro h
    have h' := congrArg BitVec.toNat h
    rw [BitVec.toNat_ofNat, Nat.mod_eq_of_lt hn] at h'
    simpa using h'
  · rintro rfl; rfl

/-- The mask "both coordinates are zero" of an [8, 128] tile, read at a pair of coordinates. -/
private theorem mask_eq_one (h0 : (⟨2, ![8, 128]⟩ : Shape).Iotas .tc 32 [0]) (h1 : (⟨2, ![8, 128]⟩ : Shape).Iotas .tc 32 [1])
    (p : Fin 8) (q : Fin 128) :
    andi (cmpi .eq (iota .tc ⟨2, ![8, 128]⟩ 32 [0] h0) (broadcast ⟨2, ![8, 128]⟩ (0#32 : BitVec 32)))
         (cmpi .eq (iota .tc ⟨2, ![8, 128]⟩ 32 [1] h1) (broadcast ⟨2, ![8, 128]⟩ (0#32 : BitVec 32))) (ix2 p q) = 1#1
      ↔ p.val = 0 ∧ q.val = 0 := by
  show IntOp.andi (IntOp.cmpi .eq (iota .tc ⟨2, ![8, 128]⟩ 32 [0] h0 (ix2 p q)) 0#32)
        (IntOp.cmpi .eq (iota .tc ⟨2, ![8, 128]⟩ 32 [1] h1 (ix2 p q)) 0#32) = 1#1 ↔ _
  rw [iota_single_apply, iota_single_apply, IntOp.andi_eq_one, IntOp.cmpi_eq, IntOp.cmpi_eq]
  show BitVec.ofNat 32 p.val = 0#32 ∧ BitVec.ofNat 32 q.val = 0#32 ↔ _
  rw [ofNat32_eq_zero (by have := p.isLt; omega), ofNat32_eq_zero (by have := q.isLt; omega)]

/-- The [8, 128] tile that holds `v` where both lane coordinates are zero and the zero word elsewhere, stored as a
    [1, 8, 128] block: its total is `v`. -/
theorem tile_total (v : Ideal .f32) (h0 : (⟨2, ![8, 128]⟩ : Shape).Iotas .tc 32 [0]) (h1 : (⟨2, ![8, 128]⟩ : Shape).Iotas .tc 32 [1])
    (hc : (⟨2, ![8, 128]⟩ : Shape).ShapeCasts ⟨3, ![1, 8, 128]⟩) :
    ∑ y : (⟨3, ![1, 8, 128]⟩ : Shape).Idx,
      shapeCast ⟨3, ![1, 8, 128]⟩
        (select (andi (cmpi .eq (iota .tc ⟨2, ![8, 128]⟩ 32 [0] h0) (broadcast ⟨2, ![8, 128]⟩ (0#32 : BitVec 32)))
                      (cmpi .eq (iota .tc ⟨2, ![8, 128]⟩ 32 [1] h1) (broadcast ⟨2, ![8, 128]⟩ (0#32 : BitVec 32))))
          (broadcast ⟨2, ![8, 128]⟩ v) (broadcast ⟨2, ![8, 128]⟩ (Scalar.ofBits (F := Ideal) .f32 0x00000000#32)) : FVec Ideal ⟨2, ![8, 128]⟩ .f32) hc y
      = v := by
  rw [sum_shapeCast, Finset.sum_eq_single (ix2 (0 : Fin 8) (0 : Fin 128))]
  · rw [select_apply, (mask_eq_one h0 h1 0 0).2 ⟨rfl, rfl⟩, select_one, broadcast_apply]
  · intro z _ hz
    obtain ⟨p, q, rfl⟩ : ∃ (p : Fin 8) (q : Fin 128), z = ix2 p q := ⟨z 0, z 1, eq_ix2 z⟩
    have hm : ¬ (p.val = 0 ∧ q.val = 0) := by
      rintro ⟨hp, hq⟩
      apply hz
      have ep : p = 0 := Fin.ext hp
      have eq' : q = 0 := Fin.ext hq
      subst ep; subst eq'; rfl
    rw [select_apply, eq_zero_of_ne_one (mt (mask_eq_one h0 h1 p q).1 hm), select_zero, broadcast_apply]
    exact Ideal.ofBits_zero_f32
  · intro h; exact absurd (Finset.mem_univ _) h

/-- A [B·R, C] array's total, taken block of R rows by block of R rows. -/
theorem sum_rowBlocks {M : Type*} [AddCommMonoid M] {B R C N : Nat} (hN : B * R = N) (A : (⟨2, ![N, C]⟩ : Shape).Idx → M) :
    ∑ b : Fin B, ∑ r : Fin R, ∑ c : Fin C, A (ix2 (Fin.cast hN (finProdFinEquiv (b, r))) c) = ∑ q, A q := by
  subst hN
  rw [sum_idx2, ← Equiv.sum_comp finProdFinEquiv, Fintype.sum_prod_type]
  rfl

end TileSums
-- ==== Proof.Totals.lean ====
/-
  The three reduction kernels against the plain totals they stand for, over the extended reals. Each kernel's body
  stores a tile that holds its block's total at the origin and zero elsewhere, so the tile's total is the block's
  total; the output array's blocks are those tiles, so its total is the total over all blocks, which regroups the total
  over the whole array, block of rows by block of rows. Only commutativity and associativity of addition are used: no
  finiteness.
-/
import proofs.«124842_j61460982006014_1_alg».proof.Proof.LibTileSums
import proofs.«124842_j61460982006014_1_alg».proof.Proof.Region0
import proofs.«124842_j61460982006014_1_alg».proof.Proof.Region1
import proofs.«124842_j61460982006014_1_alg».proof.Proof.Region2
import Idealize.ShloMosaic.Lib.IdealHost
import Idealize.ShloMosaic.PureOps.Ideal.Laws

set_option maxRecDepth 16384

noncomputable section

open Idealize.ShloMosaic Idealize.ShloMosaic.ValueIdx TileSums
open scoped BigOperators

namespace Cert.KernelIdeal.Hand

open Cert.KernelIdeal Cert.KernelIdeal.Gen

/-- The one element of a reduction into the one-element shape, read through its [1, 1, 1] view at the origin, is the
    total of the source. -/
theorem reduced_total {s : Shape} {axes : List (Fin s.rank)} (src : FVec Ideal s .f32) (acc : BitVec FTy.f32.bits)
    (h : s.Reduces axes S1) (hφ : FKind.Formats .f32) (hacc : acc = FKind.add.neutral .f32 hφ) (hc : S1.ShapeCasts S1x1x1)
    (hp : ∀ a, (![0, 0, 0] : Fin 3 → Nat) a < S1x1x1.size a) :
    extractAt ![0, 0, 0] (shapeCast S1x1x1 (multiReduction (F := Ideal) .add axes S1 src acc h hφ hacc) hc) hp = ∑ i : s.Idx, src i :=
  Ideal.multiReduction_add_total src acc h (fun b => by fin_cases b; rfl) hφ hacc _

set_option maxHeartbeats 400000 in
/-- The first kernel's tile of a block totals the block's squared positive parts. -/
theorem pay0_total (x : FVec Ideal S8000x64 .f32) :
    ∑ y : S1x8x128.Idx, k0_pay1 (F := Ideal) x y = ∑ q : S8000x64.Idx, max (x q) 0 * max (x q) 0 := by
  unfold k0_pay1
  dsimp only
  refine (tile_total _ _ _ _).trans ?_
  refine (reduced_total _ _ _ _ _ _ _).trans ?_
  rw [sum_shapeCast]
  refine Finset.sum_congr rfl fun q _ => ?_
  simp only [mulf_apply, maximumf_apply, broadcast_apply, Ideal.ofBits_def, Ideal.ofBits_zero_f32]

set_option maxHeartbeats 400000 in
/-- The second kernel's tile likewise, over the whole [64, 30000] table. -/
theorem pay1_total (x : FVec Ideal S64x30000 .f32) :
    ∑ y : S1x8x128.Idx, k1_pay1 (F := Ideal) x y = ∑ q : S64x30000.Idx, max (x q) 0 * max (x q) 0 := by
  unfold k1_pay1
  dsimp only
  refine (tile_total _ _ _ _).trans ?_
  refine (reduced_total _ _ _ _ _ _ _).trans ?_
  rw [sum_shapeCast]
  refine Finset.sum_congr rfl fun q _ => ?_
  simp only [mulf_apply, maximumf_apply, broadcast_apply, Ideal.ofBits_def, Ideal.ofBits_zero_f32]

set_option maxHeartbeats 400000 in
/-- The third kernel's tile of two blocks totals the squared differences. -/
theorem pay2_total (x z : FVec Ideal S64x30000 .f32) :
    ∑ y : S1x8x128.Idx, k2_pay1 (F := Ideal) x z y = ∑ q : S64x30000.Idx, (x q - z q) * (x q - z q) := by
  unfold k2_pay1
  dsimp only
  refine (tile_total _ _ _ _).trans ?_
  refine (reduced_total _ _ _ _ _ _ _).trans ?_
  rw [sum_shapeCast]
  refine Finset.sum_congr rfl fun q _ => ?_
  simp only [mulf_apply, subf_apply]

/-- An array of [8, 128] tiles, block b of which is the [1, 8, 128] tile `tile b`, totals the tiles' totals. -/
theorem sum_blocks {B : Nat} (f : (⟨3, ![B, 8, 128]⟩ : Shape).Idx → Ideal .f32) (tile : Fin B → S1x8x128.Idx → Ideal .f32)
    (hf : ∀ b r l, f (ix3 b r l) = tile b (ix3 (0 : Fin 1) r l)) : ∑ i, f i = ∑ b, ∑ y, tile b y := by
  rw [sum_idx3]
  refine Finset.sum_congr rfl fun b _ => ?_
  rw [sum_idx3 (tile b), Fin.sum_univ_one]
  exact Finset.sum_congr rfl fun r _ => Finset.sum_congr rfl fun l _ => hf b r l

set_option maxHeartbeats 400000 in
/-- The first kernel's output array totals the whole table's squared positive parts. -/
theorem total0 (A : FVec Ideal S200000x64 .f32) :
    ∑ i : S25x8x128.Idx, arr0 (F := Ideal) A i = ∑ q : S200000x64.Idx, max (A q) 0 * max (A q) 0 := by
  rw [sum_blocks (arr0 (F := Ideal) A) (fun b => k0_pay1 (F := Ideal) (rows0 A b)) (fun b r l => rfl)]
  refine Eq.trans ?_ (sum_rowBlocks (B := 25) (R := 8000) (C := 64) (N := 200000) (by norm_num)
    (fun q : S200000x64.Idx => max (A q) 0 * max (A q) 0))
  refine Finset.sum_congr rfl fun b _ => ?_
  rw [pay0_total, sum_idx2]
  refine Finset.sum_congr rfl fun r _ => Finset.sum_congr rfl fun c _ => ?_
  have e : rows0 (F := Ideal) A b (ix2 r c) = A (ix2 (Fin.cast (by norm_num : 25 * 8000 = 200000) (finProdFinEquiv (b, r))) c) := by
    unfold rows0
    refine congrArg A (Shape.idx_ext₂ ?_ rfl)
    show 8000 * b.val + r.val = ((finProdFinEquiv (b, r)).val)
    rw [finProdFinEquiv_apply_val]
    exact Nat.add_comm _ _
  rw [e]

theorem total1 (A : FVec Ideal S64x30000 .f32) :
    ∑ i : S1x8x128.Idx, arr1 (F := Ideal) A i = ∑ q : S64x30000.Idx, max (A q) 0 * max (A q) 0 := by
  rw [sum_blocks (B := 1) (arr1 (F := Ideal) A) (fun _ => k1_pay1 (F := Ideal) A) (fun b r l => rfl), Fin.sum_univ_one,
    pay1_total]

set_option maxHeartbeats 400000 in
/-- The third kernel's output array totals the squared differences of the two whole arrays. -/
theorem total2 (A B : FVec Ideal S4096x30000 .f32) :
    ∑ i : S64x8x128.Idx, arr2 (F := Ideal) A B i = ∑ q : S4096x30000.Idx, (A q - B q) * (A q - B q) := by
  rw [sum_blocks (arr2 (F := Ideal) A B) (fun b => k2_pay1 (F := Ideal) (rows2 A b) (rows2 B b)) (fun b r l => rfl)]
  refine Eq.trans ?_ (sum_rowBlocks (B := 64) (R := 64) (C := 30000) (N := 4096) (by norm_num)
    (fun q : S4096x30000.Idx => (A q - B q) * (A q - B q)))
  refine Finset.sum_congr rfl fun b _ => ?_
  rw [pay2_total, sum_idx2]
  refine Finset.sum_congr rfl fun r _ => Finset.sum_congr rfl fun c _ => ?_
  have e : ∀ X : FVec Ideal S4096x30000 .f32, rows2 (F := Ideal) X b (ix2 r c)
      = X (ix2 (Fin.cast (by norm_num : 64 * 64 = 4096) (finProdFinEquiv (b, r))) c) := by
    intro X
    unfold rows2
    refine congrArg X (Shape.idx_ext₂ ?_ rfl)
    show 64 * b.val + r.val = ((finProdFinEquiv (b, r)).val)
    rw [finProdFinEquiv_apply_val]
    exact Nat.add_comm _ _
  rw [e A, e B]

/-- The host's total of the first kernel's output is the host's total of the squared positive parts of the table. -/
theorem law0 (A : FVec Ideal S200000x64 .f32) (hK : S25x8x128.ReducesTo [0, 1, 2] S_) (hR : S200000x64.ReducesTo [0, 1] S_)
    (hb : S_.BroadcastsInDim S200000x64 (![] : Fin 0 → Fin S200000x64.rank)) (hS : 0 < S_.numel) :
    Host.reduceAdd (F := Ideal) (arr0 (F := Ideal) A) (constant S_ .f32 0x00000000#32) hK hS
      = Host.reduceAdd (F := Ideal) (mulf (maximumf A (broadcastInDim S200000x64 ![] hb (constant (F := Ideal) S_ .f32 0x00000000#32)))
            (maximumf A (broadcastInDim S200000x64 ![] hb (constant (F := Ideal) S_ .f32 0x00000000#32))))
          (constant S_ .f32 0x00000000#32) hR hS := by
  funext j
  rw [hostReduceAdd_apply, hostReduceAdd_apply, Ideal.hostReduceAdd_total hK (fun b => b.elim0),
    Ideal.hostReduceAdd_total hR (fun b => b.elim0), total0]
  refine congrArg _ (Finset.sum_congr rfl fun q _ => ?_)
  rw [mulf_apply, maximumf_apply, broadcastInDim_scalar_apply hb, constant_apply, Ideal.ofBits_zero_f32]

theorem law1 (A : FVec Ideal S64x30000 .f32) (hK : S1x8x128.ReducesTo [0, 1, 2] S_) (hR : S64x30000.ReducesTo [0, 1] S_)
    (hb : S_.BroadcastsInDim S64x30000 (![] : Fin 0 → Fin S64x30000.rank)) (hS : 0 < S_.numel) :
    Host.reduceAdd (F := Ideal) (arr1 (F := Ideal) A) (constant S_ .f32 0x00000000#32) hK hS
      = Host.reduceAdd (F := Ideal) (mulf (maximumf A (broadcastInDim S64x30000 ![] hb (constant (F := Ideal) S_ .f32 0x00000000#32)))
            (maximumf A (broadcastInDim S64x30000 ![] hb (constant (F := Ideal) S_ .f32 0x00000000#32))))
          (constant S_ .f32 0x00000000#32) hR hS := by
  funext j
  rw [hostReduceAdd_apply, hostReduceAdd_apply, Ideal.hostReduceAdd_total hK (fun b => b.elim0),
    Ideal.hostReduceAdd_total hR (fun b => b.elim0), total1]
  refine congrArg _ (Finset.sum_congr rfl fun q _ => ?_)
  rw [mulf_apply, maximumf_apply, broadcastInDim_scalar_apply hb, constant_apply, Ideal.ofBits_zero_f32]

/-- The host's total of the third kernel's output is the host's total of the squared differences. -/
theorem law2 (A B : FVec Ideal S4096x30000 .f32) (hK : S64x8x128.ReducesTo [0, 1, 2] S_) (hR : S4096x30000.ReducesTo [0, 1] S_)
    (hS : 0 < S_.numel) :
    Host.reduceAdd (F := Ideal) (arr2 (F := Ideal) A B) (constant S_ .f32 0x00000000#32) hK hS
      = Host.reduceAdd (F := Ideal) (mulf (subf A B) (subf A B)) (constant S_ .f32 0x00000000#32) hR hS := by
  funext j
  rw [hostReduceAdd_apply, hostReduceAdd_apply, Ideal.hostReduceAdd_total hK (fun b => b.elim0),
    Ideal.hostReduceAdd_total hR (fun b => b.elim0), total2]
  refine congrArg _ (Finset.sum_congr rfl fun q _ => ?_)
  rw [mulf_apply, subf_apply]

end Cert.KernelIdeal.Hand

end
-- ==== Proof.Bridge.lean ====
/-
  The reference's result against the kernel program's. Both are the same combination
  root(total of squared differences) + w₀ · entity penalty + w₁ · word penalty + w₂ · (root(total of the entity table's
  squared positive parts) + root(total of the word table's)), with the penalties computed by the same host text in both
  programs. The reference takes each of the three totals over the whole array at once; the kernel program takes it as
  the host's total of a reduction kernel's output array. The three laws exchange one for the other; what is left is
  one term on both sides.
-/
import proofs.«124842_j61460982006014_1_alg».proof.Defs
import proofs.«124842_j61460982006014_1_alg».proof.Proof.Gen.ReferenceIdeal.Run
import proofs.«124842_j61460982006014_1_alg».proof.Proof.KernelValue
import proofs.«124842_j61460982006014_1_alg».proof.Proof.Totals

set_option maxRecDepth 16384

noncomputable section

open Idealize.ShloMosaic Idealize.ShloMosaic.TcCoe Idealize.SL.Sem

namespace Cert.Proof.Bridge

open Cert.KernelIdeal.Hand

set_option maxHeartbeats 2000000 in
/-- From memories that agree on the eleven arguments, the reference's composed result is the kernel program's. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v64 (F := Ideal) m' c = value (F := Ideal) m c := by
  unfold Cert.ReferenceIdeal.Value.res_main_v64 value total
  rw [h0, h1, h2, h3, h4, h5, h6, h7, h8, h9, h10]
  rw [law0 _ (by decide) (by decide) (by decide) (by decide), law1 _ (by decide) (by decide) (by decide) (by decide),
    law2 _ _ (by decide) (by decide) (by decide)]
  unfold penE penW
  rfl

end Cert.Proof.Bridge

end
-- ==== Proof.lean ====
/-
  The certificate's claims. The three frames are the generated ones (the reference's is its generated run with the
  result dropped); the idealization rewrote nothing, so `preserves` is trivial. For `algebraic`: the kernel program's
  run ends with its result at `value` of the launch's arrays, the reference's at its composed term, and from memories
  that agree on the arguments the two are one extended real (Bridge.lean: the three reduction kernels' totals regroup
  the reference's three totals; everything else is the same host text).
-/
import proofs.«124842_j61460982006014_1_alg».proof.Defs
import proofs.«124842_j61460982006014_1_alg».proof.Proof.Gen.Kernel
import proofs.«124842_j61460982006014_1_alg».proof.Proof.Gen.Kernel.Skeleton
import proofs.«124842_j61460982006014_1_alg».proof.Proof.Gen.Kernel.Launch
import proofs.«124842_j61460982006014_1_alg».proof.Proof.Gen.Kernel.Points
import proofs.«124842_j61460982006014_1_alg».proof.Proof.Gen.Kernel.Frame
import proofs.«124842_j61460982006014_1_alg».proof.Proof.Gen.KernelIdeal
import proofs.«124842_j61460982006014_1_alg».proof.Proof.Gen.KernelIdeal.Skeleton
import proofs.«124842_j61460982006014_1_alg».proof.Proof.Gen.KernelIdeal.Launch
import proofs.«124842_j61460982006014_1_alg».proof.Proof.Gen.KernelIdeal.Points
import proofs.«124842_j61460982006014_1_alg».proof.Proof.Gen.KernelIdeal.Frame
import proofs.«124842_j61460982006014_1_alg».proof.Proof.Gen.ReferenceIdeal
import proofs.«124842_j61460982006014_1_alg».proof.Proof.Gen.ReferenceIdeal.Run
import proofs.«124842_j61460982006014_1_alg».proof.Proof.Gen.ReferenceIdeal.Read
import proofs.«124842_j61460982006014_1_alg».proof.Proof.Gen.Pre_finite_inputs
import proofs.«124842_j61460982006014_1_alg».proof.Proof.Bridge
import Idealize.ShloMosaic.Adequacy
import Idealize.ShloMosaic.Init

noncomputable section

namespace Cert.Proof

open Idealize.ShloMosaic Idealize.SL.Sem

/-- Both idealized programs run, from memories agreeing on the arguments, to one result. -/
theorem algebraic : Cert.algebraic_KernelIdeal_ReferenceIdeal := by
  intro m ρ m' ρ' _ hagree
  refine ⟨fun c => Cert.KernelIdeal.Hand.value (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  exact Cert.Proof.Bridge.ref_eq m m' c e0 e1 e2 e3 e4 e5 e6 e7 e8 e9 e10

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
